-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x1024 : Shape := ⟨2, ![1024, 1024]⟩
abbrev S512x1024 : Shape := ⟨2, ![512, 1024]⟩
abbrev S1024x1 : Shape := ⟨2, ![1024, 1]⟩
abbrev S1x512 : Shape := ⟨2, ![1, 512]⟩
abbrev S1024x512 : Shape := ⟨2, ![1024, 512]⟩

abbrev nBuf : Space → Nat
  | .hbm => 10
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S1x8192, .f32⟩
  | .hbm, ⟨9, _⟩ => ⟨S8192x8192, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  transposes_S512x1024_p1_0_S1024x512 : S512x1024.Transposes [1, 0] S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x8192.size a
  hwx0_4 : ∀ i : grid0.Coords, EltTy.bits .f32 = 32 ∨ (Rect.block (s := S8192x8192) S1024x512.size (cc0_transform_4 i) (hinb0_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x8192, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x1024_S8192x1024_S8192x8192_1_1_0_0_n_n_wf : DotDims.WF S8192x1024 S8192x1024 S8192x8192 [1] [1] [0] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.Spec.lean ====
/-
  The matrix both programs compute, over the extended reals.

  For `a` and `b` of 8192 rows of 1024 entries, entry `(n, m)` is
  `1/2 * (sum_k a[n, k] + sum_k b[m, k]) - sum_k sqrt a[n, k] * sqrt b[m, k]`:
  half of `sum_k (sqrt a[n, k] - sqrt b[m, k])^2` expanded, with the product term left as a matrix product.
-/
import Idealize.ShloMosaic.Lib.ValueIdx
import Idealize.ShloMosaic.PureOps.Ideal

noncomputable section

namespace Cert.Hellinger

open Idealize.ShloMosaic Idealize.ShloMosaic.ValueIdx

/-- The sum of row `n` of a matrix of 8192 rows of 1024 entries. -/
def rowSum (x : (⟨2, ![8192, 1024]⟩ : Shape).Idx → EReal) (n : Fin 8192) : EReal := ∑ k : Fin 1024, x (ix2 n k)

/-- Entry `(n, m)` of the distance matrix of `a` and `b`. -/
def dist (a b : (⟨2, ![8192, 1024]⟩ : Shape).Idx → EReal) : (⟨2, ![8192, 8192]⟩ : Shape).Idx → EReal := fun i =>
  Ideal.ofBits .f32 0x3F000000#32
      * ((∑ k : Fin 1024, a (ix2 (n0 := 8192) (i 0) k)) + ∑ k : Fin 1024, b (ix2 (n0 := 8192) (i 1) k))
    - ∑ k : Fin 1024, Ideal.sqrt (a (ix2 (n0 := 8192) (i 0) k)) * Ideal.sqrt (b (ix2 (n0 := 8192) (i 1) k))

/-- The same at an index given by its two coordinates. -/
theorem dist_apply (a b : (⟨2, ![8192, 1024]⟩ : Shape).Idx → EReal) (n mm : Fin 8192) :
    dist a b (ix2 n mm)
      = Ideal.ofBits .f32 0x3F000000#32 * ((∑ k : Fin 1024, a (ix2 n k)) + ∑ k : Fin 1024, b (ix2 mm k))
        - ∑ k : Fin 1024, Ideal.sqrt (a (ix2 n k)) * Ideal.sqrt (b (ix2 mm k)) := rfl

end Cert.Hellinger

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.Tile.lean ====
/-
  One tile of the distance matrix, read at an entry.

  The kernel's body works on a tile of 1024 rows of `a` and 512 rows of `b`. It takes square roots of both blocks,
  narrows them to bf16 (the identity over the extended reals), transposes the second and multiplies into zeros: entry
  `(p, q)` of that product is the sum over `k` of `sqrt a[p, k] * sqrt b[q, k]`. From a column block of row sums of `a`
  and a row block of row sums of `b` it forms `1/2 * (ra[p] + rb[q])`, and stores the difference.
-/
import proofs.«142866_j18305150615591_1_alg».proof.Proof.Gen.KernelIdeal.Skeleton
import proofs.«142866_j18305150615591_1_alg».proof.Proof.LibAffineRows
import Idealize.ShloMosaic.Lib.ValueIdx
import Idealize.ShloMosaic.Lib.ValueLayout
import Idealize.ShloMosaic.Lib.Pipeline.Value
import Idealize.ShloMosaic.PureOps.Ideal.Laws

noncomputable section

namespace Cert.Hellinger

open Idealize.ShloMosaic Idealize.ShloMosaic.ValueIdx
open Cert.KernelIdeal Cert.KernelIdeal.Gen

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The tile product's dimension numbers are those of a plain `[1024, 1024]` by `[1024, 512]` product. -/
theorem plainCross : Cert.Lib.PlainDot (R := 1024) (K := 1024) (M := 512) dot_S1024x1024_S1024x512_S1024x512_1_0_0_1_n_n where
  rank := rfl
  size := rfl
  l0 := fun i q => by
    unfold DotDims.lhsIdx
    rw [dif_neg (show ¬(0 : Fin S1024x1024.rank) ∈ dot_S1024x1024_S1024x512_S1024x512_1_0_0_1_n_n.lhsBatch by decide),
      dif_pos (show (0 : Fin S1024x1024.rank) ∈ dot_S1024x1024_S1024x512_S1024x512_1_0_0_1_n_n.lhsNonContracting by decide)]
    rfl
  l1 := fun i q => dot_S1024x1024_S1024x512_S1024x512_1_0_0_1_n_n.lhsIdx_val_of_single rfl i q
  r0 := fun i q => dot_S1024x1024_S1024x512_S1024x512_1_0_0_1_n_n.rhsIdx_val_of_single rfl i q
  r1 := fun i q => by
    unfold DotDims.rhsIdx
    rw [dif_neg (show ¬(1 : Fin S1024x512.rank) ∈ dot_S1024x1024_S1024x512_S1024x512_1_0_0_1_n_n.rhsBatch by decide),
      dif_pos (show (1 : Fin S1024x512.rank) ∈ dot_S1024x1024_S1024x512_S1024x512_1_0_0_1_n_n.rhsNonContracting by decide)]
    rfl

/-- The product of the two square-rooted blocks, the second transposed, at `(p, q)`: the sum over the shared axis. -/
theorem cross_apply (x0 : Vec Ideal S1024x1024 .f32) (x1 : Vec Ideal S512x1024 .f32) (p : Fin 1024) (q : Fin 512) :
    matmul (F := Ideal) dot_S1024x1024_S1024x512_S1024x512_1_0_0_1_n_n none (truncf (F := Ideal) .bf16 (sqrt (F := Ideal) (φ := .f32) x0) bitsLt_bf16_f32)
        (transpose S1024x512 [1, 0] (truncf (F := Ideal) .bf16 (sqrt (F := Ideal) (φ := .f32) x1) bitsLt_bf16_f32) transposes_S512x1024_p1_0_S1024x512)
        (constant (F := Ideal) S1024x512 .f32 0x00000000#32) (ix2 p q)
      = ∑ k : Fin 1024, Ideal.sqrt (x0 (ix2 p k)) * Ideal.sqrt (x1 (ix2 q k)) := by
  simp only [matmul]
  rw [Ideal.matmul_constant_zero_apply]
  refine (plainCross.sum_eq
    (fun i => (truncf (F := Ideal) .bf16 (sqrt (F := Ideal) (φ := .f32) x0) bitsLt_bf16_f32 : FVec Ideal S1024x1024 .bf16) i)
    (fun i => (transpose S1024x512 [1, 0] (truncf (F := Ideal) .bf16 (sqrt (F := Ideal) (φ := .f32) x1) bitsLt_bf16_f32) transposes_S512x1024_p1_0_S1024x512 : FVec Ideal S1024x512 .bf16) i)
    p q).trans ?_
  refine Finset.sum_congr rfl fun k _ => ?_
  rw [transpose_apply [1, 0] _ transposes_S512x1024_p1_0_S1024x512 (ix2 k q) (ix2 q k)
    (fun b => by match b with | ⟨0, _⟩ => rfl | ⟨1, _⟩ => rfl)]
  rfl

/-- THE TILE AT AN ENTRY: half the sum of the two row-sum blocks' entries, less the product's. -/
theorem tile_apply (x0 : Vec Ideal S1024x1024 .f32) (x1 : Vec Ideal S512x1024 .f32) (x8 : Vec Ideal S1024x1 .f32)
    (x10 : Vec Ideal S1x512 .f32) (p : Fin 1024) (q : Fin 512) :
    k0_pay1 (F := Ideal) x0 x1 x8 x10 (ix2 p q)
      = Ideal.ofBits .f32 0x3F000000#32 * (x8 (ix2 p (0 : Fin 1)) + x10 (ix2 (0 : Fin 1) q))
        - ∑ k : Fin 1024, Ideal.sqrt (x0 (ix2 p k)) * Ideal.sqrt (x1 (ix2 q k)) := by
  unfold k0_pay1
  dsimp only
  rw [subf_apply, mulf_apply, addf_apply, broadcast_apply, cross_apply, shapeCast_self, shapeCast_self,
    broadcastTo_1b_ab_apply, broadcastTo_a1_ab_apply]
  rfl

end Cert.Hellinger

end
-- ==== Proof.Blocks.lean ====
/-
  The kernel's result array is the distance matrix.

  The grid has 8 x 16 points. Point `(i, j)` reads rows `1024 i ..` of `a`, rows `512 j ..` of `b`, the same rows of the
  column of row sums of `a` and the same columns of the row of row sums of `b`, and writes the tile of the result at
  block `(i, j)`. Each tile entry is the distance matrix's entry at the tile's place, and the tiles cover the array.
-/
import proofs.«142866_j18305150615591_1_alg».proof.Proof.Gen.KernelIdeal.Value
import proofs.«142866_j18305150615591_1_alg».proof.Proof.Spec
import proofs.«142866_j18305150615591_1_alg».proof.Proof.Tile
import Idealize.ShloMosaic.Lib.StableHlo.Run
import Idealize.ShloMosaic.Lib.Pipeline.Value
import Idealize.ShloMosaic.Lib.ValueIdx
import Idealize.ShloMosaic.PureOps.Ideal.Laws

noncomputable section

namespace Cert.Hellinger

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## The row sums the host prepares -/

/-- The host's sum over a row, from zero, is the sum of the row's entries. -/
theorem rowSum_apply (x : (⟨S8192x1024, .f32⟩ : BufTy).Contents (Elt Ideal)) (n : Fin 8192) :
    Host.reduceAdd (F := Ideal) x (constant S_ .f32 0x00000000#32) reducesTo_S8192x1024_S8192_d1 h_S_ (ix1 n)
      = ∑ k : Fin 1024, x (ix2 n k) := by
  simp only [Host.reduceAdd, Ideal.hostReduceAdd_def]
  rw [Ideal.hostReduceAdd_single reducesTo_S8192x1024_S8192_d1 (by decide)]
  show Ideal.ofBits .f32 0x00000000#32 + _ = _
  rw [Ideal.ofBits_zero_f32, zero_add]
  refine Finset.sum_congr rfl fun k _ => ?_
  exact congrArg x (funext fun a => Fin.ext (by match a with | ⟨0, _⟩ => rfl | ⟨1, _⟩ => rfl))

/-- The column of row sums of `a` as the region finds it. -/
theorem colA_eq (c : Dev nD) : (V m c main_v1 : S8192x1.Idx → EReal)
    = broadcastInDim S8192x1 ![0] bcast_S8192_S8192x1_0
        (Host.reduceAdd (F := Ideal) (m ((c : Thread nD τ).loc main_arg0)) (constant S_ .f32 0x00000000#32) reducesTo_S8192x1024_S8192_d1 h_S_) := by
  dsimp only [Gen.V, Gen.hostOps0]; after_results

/-- The row of row sums of `b` as the region finds it. -/
theorem rowB_eq (c : Dev nD) : (V m c main_v4 : S1x8192.Idx → EReal)
    = shapeCast S1x8192 (broadcastInDim S8192x1 ![0] bcast_S8192_S8192x1_0
        (Host.reduceAdd (F := Ideal) (m ((c : Thread nD τ).loc main_arg1)) (constant S_ .f32 0x00000000#32) reducesTo_S8192x1024_S8192_d1 h_S_))
        shapeCasts_S8192x1_S1x8192 := by
  dsimp only [Gen.V, Gen.hostOps0]; after_results; rfl

/-- Entry `n` of the column is the sum of row `n` of `a`. -/
theorem colA_apply (c : Dev nD) (n : Fin 8192) :
    (V m c main_v1 : S8192x1.Idx → EReal) (ix2 n (0 : Fin 1)) = rowSum (m ((c : Thread nD τ).loc main_arg0)) n := by
  rw [colA_eq]
  rw [broadcastInDim_apply _ bcast_S8192_S8192x1_0 _ (ix2 n (0 : Fin 1)) (ix1 n) (fun a => by
    match a with
    | ⟨0, _⟩ => show n.val = if (8192 : ℕ) = 1 then 0 else n.val; rw [if_neg (by decide)])]
  exact rowSum_apply _ n

/-- Entry `n` of the row is the sum of row `n` of `b`. -/
theorem rowB_apply (c : Dev nD) (n : Fin 8192) :
    (V m c main_v4 : S1x8192.Idx → EReal) (ix2 (0 : Fin 1) n) = rowSum (m ((c : Thread nD τ).loc main_arg1)) n := by
  rw [rowB_eq]
  rw [shapeCast_apply _ shapeCasts_S8192x1_S1x8192 (ix2 (0 : Fin 1) n) (ix2 n (0 : Fin 1)) (by
    rw [Shape.rowMajor_val_two, Shape.rowMajor_val_two]
    show n.val * 1 + 0 = 0 * 8192 + n.val
    omega)]
  rw [broadcastInDim_apply _ bcast_S8192_S8192x1_0 _ (ix2 n (0 : Fin 1)) (ix1 n) (fun a => by
    match a with
    | ⟨0, _⟩ => show n.val = if (8192 : ℕ) = 1 then 0 else n.val; rw [if_neg (by decide)])]
  exact rowSum_apply _ n

/-! ## A tile entry is the matrix's entry -/

/-- Where the four loaded blocks hold row `n` of `a`, row `mm` of `b` and their two row sums at `p` and `q`, the tile's
    entry `(p, q)` is the distance matrix's entry `(n, mm)`. -/
theorem tile_dist (a b : S8192x1024.Idx → EReal) (ra : S8192x1.Idx → EReal) (rb : S1x8192.Idx → EReal)
    (hra : ∀ n : Fin 8192, ra (ix2 n (0 : Fin 1)) = rowSum a n)
    (hrb : ∀ n : Fin 8192, rb (ix2 (0 : Fin 1) n) = rowSum b n)
    (x0 : Vec Ideal S1024x1024 .f32) (x1 : Vec Ideal S512x1024 .f32) (x8 : Vec Ideal S1024x1 .f32) (x10 : Vec Ideal S1x512 .f32)
    (p : Fin 1024) (q : Fin 512) (n mm : Fin 8192)
    (h0 : ∀ k : Fin 1024, x0 (ix2 p k) = a (ix2 n k)) (h1 : ∀ k : Fin 1024, x1 (ix2 q k) = b (ix2 mm k))
    (h8 : x8 (ix2 p (0 : Fin 1)) = ra (ix2 n (0 : Fin 1))) (h10 : x10 (ix2 (0 : Fin 1) q) = rb (ix2 (0 : Fin 1) mm)) :
    k0_pay1 (F := Ideal) x0 x1 x8 x10 (ix2 p q) = dist a b (ix2 n mm) := by
  rw [tile_apply, dist_apply, h8, h10, hra, hrb]
  simp only [h0, h1, rowSum]

/-! ## The blocks -/

theorem hz : (![0, 0] : Fin 2 → Nat) = fun _ => 0 := funext fun a => by fin_cases a <;> rfl

/-- The printed index maps over the grid: the blocks of `a` and of its row sums move with the result's block row, the
    blocks of `b` and of its row sums with the result's block column. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 15 :=
  (by decide +kernel : ∀ t : Fin grid0.N, _)

/-- Every block of the result is some point's. -/
theorem idx_onto : ∀ (q0 : Fin 8) (q1 : Fin 16), ∃ t : Fin cfg0.N, win0_4.index t = ![q0.val, q1.val] :=
  (by decide +kernel : ∀ (q0 : Fin 8) (q1 : Fin 16), ∃ t : Fin grid0.N, win0_4.index t = ![q0.val, q1.val])

/-- WHAT POINT `t` WRITES BACK is block `t` of the distance matrix of the arrays as the region finds them. -/
theorem flushed_eq (c : Dev nD) (t : Fin cfg0.N) :
    (dats m 0 c).flushed 4 t
      = ((cfg0.win 4).blk t).view.read (Elt Ideal) (dist (m ((c : Thread nD τ).loc main_arg0)) (m ((c : Thread nD τ).loc main_arg1))) := by
  rw [Cert.KernelIdeal.Value.flushed4]
  unfold out0_4
  rw [View.canon_unit_zero hz]
  simp only [View.ld_unit_zero (S := S1024x1024) hz, View.ld_unit_zero (S := S512x1024) hz,
    View.ld_unit_zero (S := S1024x1) hz, View.ld_unit_zero (S := S1x512) hz]
  obtain ⟨e00, e01, e10, e11, e20, e21, e30, e31, b0, b1⟩ := idx_facts t
  refine funext fun (j : S1024x512.Idx) => ?_
  obtain ⟨p, q, rfl⟩ : ∃ (p : Fin 1024) (q : Fin 512), j = ix2 p q := ⟨j 0, j 1, eq_ix2 j⟩
  have hp : p.val < 1024 := p.isLt
  have hq : q.val < 512 := q.isLt
  show k0_pay1 (F := Ideal) (iblk m c 0 t) (iblk m c 1 t) (iblk m c 2 t) (iblk m c 3 t) (ix2 p q)
    = dist (m ((c : Thread nD τ).loc main_arg0)) (m ((c : Thread nD τ).loc main_arg1)) (((cfg0.win 4).blk t).view.emb (ix2 p q))
  refine (tile_dist (m ((c : Thread nD τ).loc main_arg0)) (m ((c : Thread nD τ).loc main_arg1)) (V m c main_v1) (V m c main_v4)
    (colA_apply m c) (rowB_apply m c) (iblk m c 0 t) (iblk m c 1 t) (iblk m c 2 t) (iblk m c 3 t) p q
    ⟨win0_4.index t (0 : Fin 2) * 1024 + p.val, by omega⟩ ⟨win0_4.index t (1 : Fin 2) * 512 + q.val, by omega⟩ ?_ ?_ ?_ ?_).trans ?_
  · intro k
    have hk : k.val < 1024 := k.isLt
    show V m c main_arg0 (((cfg0.win 0).blk t).view.emb (ix2 p k)) = _
    rw [V_main_arg0]
    refine congrArg (m ((c : Thread nD τ).loc main_arg0)) (funext fun a => Fin.ext ?_)
    match a with
    | ⟨0, _⟩ => show win0_0.index t (0 : Fin 2) * 1024 + 1 * p.val = win0_4.index t (0 : Fin 2) * 1024 + p.val; omega
    | ⟨1, _⟩ => show win0_0.index t (1 : Fin 2) * 1024 + 1 * k.val = k.val; omega
  · intro k
    have hk : k.val < 1024 := k.isLt
    show V m c main_arg1 (((cfg0.win 1).blk t).view.emb (ix2 q k)) = _
    rw [V_main_arg1]
    refine congrArg (m ((c : Thread nD τ).loc main_arg1)) (funext fun a => Fin.ext ?_)
    match a with
    | ⟨0, _⟩ => show win0_1.index t (0 : Fin 2) * 512 + 1 * q.val = win0_4.index t (1 : Fin 2) * 512 + q.val; omega
    | ⟨1, _⟩ => show win0_1.index t (1 : Fin 2) * 1024 + 1 * k.val = k.val; omega
  · show V m c main_v1 (((cfg0.win 2).blk t).view.emb (ix2 p (0 : Fin 1))) = _
    refine congrArg (V m c main_v1) (funext fun a => Fin.ext ?_)
    match a with
    | ⟨0, _⟩ => show win0_2.index t (0 : Fin 2) * 1024 + 1 * p.val = win0_4.index t (0 : Fin 2) * 1024 + p.val; omega
    | ⟨1, _⟩ => show win0_2.index t (1 : Fin 2) * 1 + 1 * 0 = 0; omega
  · show V m c main_v4 (((cfg0.win 3).blk t).view.emb (ix2 (0 : Fin 1) q)) = _
    refine congrArg (V m c main_v4) (funext fun a => Fin.ext ?_)
    match a with
    | ⟨0, _⟩ => show win0_3.index t (0 : Fin 2) * 1 + 1 * 0 = 0; omega
    | ⟨1, _⟩ => show win0_3.index t (1 : Fin 2) * 512 + 1 * q.val = win0_4.index t (1 : Fin 2) * 512 + q.val; omega
  · refine congrArg (dist _ _) (funext fun a => Fin.ext ?_)
    match a with
    | ⟨0, _⟩ => show win0_4.index t (0 : Fin 2) * 1024 + p.val = win0_4.index t (0 : Fin 2) * 1024 + 1 * p.val; omega
    | ⟨1, _⟩ => show win0_4.index t (1 : Fin 2) * 512 + q.val = win0_4.index t (1 : Fin 2) * 512 + 1 * q.val; omega

/-- An index of the result is in point `t`'s block iff each coordinate is in the block's range on its axis. -/
theorem mem_blk (t : Fin cfg0.N) (i : S8192x8192.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v5).slice (win0_4.rect t)).set ↔ _
  rw [View.set_slice_whole, Rect.mem_set_unit]
  exact Iff.rfl

/-- Every index of the result lies in some point's block: row `r` in block row `r / 1024`, column `s` in block column `s / 512`. -/
theorem cover (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 1024, by omega⟩ ⟨(i 1).val / 512, by omega⟩
  have q0 : win0_4.index t (0 : Fin 2) = (i 0).val / 1024 := congrFun ht 0
  have q1 : win0_4.index t (1 : Fin 2) = (i 1).val / 512 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 512 ≤ (i 1).val ∧ (i 1).val < win0_4.index t (1 : Fin 2) * 512 + 512; omega

/-- THE RESULT ARRAY after the run is the distance matrix of the two arguments. -/
theorem final (c : Dev nD) :
    (dats m 0 c).arrAt 4 cfg0.N = dist (m ((c : Thread nD τ).loc main_arg0)) (m ((c : Thread nD τ).loc main_arg1)) :=
  (dats m 0 c).arrAt_eq_of_cover 4 (dist (m ((c : Thread nD τ).loc main_arg0)) (m ((c : Thread nD τ).loc main_arg1)))
    (fun t _ => flushed_eq m c t) cover

/-- The kernel's run: the result at the distance matrix, the arguments unchanged. -/
theorem run : θ_run defs (onTc (τ := τ) (main (F := Ideal))) ⟨m, fun _ => 0, ρ⟩ fun r => ∀ c : Dev nD,
      r.2.mem ((c : Thread nD τ).loc main_v5) = dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.Hellinger

end
-- ==== Proof.Reference.lean ====
/-
  The reference program's result is the distance matrix.

  The reference takes square roots of both arguments, contracts them over their second axes, sums each argument's rows,
  broadcasts the two sums over the matrix, halves their sum and subtracts the product. Read one operation at a time at
  an index, that is the distance matrix's entry.
-/
import proofs.«142866_j18305150615591_1_alg».proof.Proof.Gen.ReferenceIdeal.Read
import proofs.«142866_j18305150615591_1_alg».proof.Proof.Spec
import Idealize.ShloMosaic.Lib.ValueIdx
import Idealize.ShloMosaic.PureOps.Ideal.Laws

noncomputable section

namespace Cert.Hellinger

open Idealize.ShloMosaic Idealize.ShloMosaic.ValueIdx
open Cert.ReferenceIdeal Cert.ReferenceIdeal.Read

/-- The product's left operand is read at row `i 0` … -/
theorem lidx_eq (i : S8192x8192.Idx) (k : Fin 1024) : lidx_main_v2 i k = ix2 (n0 := 8192) (i 0) k :=
  funext fun a => Fin.ext (by match a with | ⟨0, _⟩ => rfl | ⟨1, _⟩ => rfl)
/-- … its right operand at row `i 1`. -/
theorem ridx_eq (i : S8192x8192.Idx) (k : Fin 1024) : ridx_main_v2 i k = ix2 (n0 := 8192) (i 1) k :=
  funext fun a => Fin.ext (by match a with | ⟨0, _⟩ => rfl | ⟨1, _⟩ => rfl)
/-- The first row sum, broadcast over the columns, is read at row `i 0` … -/
theorem suma_idx_eq (i : S8192x8192.Idx) (k : Fin 1024) :
    idx_main_v3 (idx_main_v4 (idx_main_v7 i)) k = ix2 (n0 := 8192) (i 0) k :=
  funext fun a => Fin.ext (by match a with | ⟨0, _⟩ => rfl | ⟨1, _⟩ => rfl)
/-- … the second, broadcast over the rows, at row `i 1`. -/
theorem sumb_idx_eq (i : S8192x8192.Idx) (k : Fin 1024) :
    idx_main_v5 (idx_main_v6 (idx_main_v8 i)) k = ix2 (n0 := 8192) (i 1) k :=
  funext fun a => Fin.ext (by match a with | ⟨0, _⟩ => rfl | ⟨1, _⟩ => rfl)

/-- THE REFERENCE'S RESULT is the distance matrix of its arguments. -/
theorem ref_eq (x0 x1 : (⟨S8192x1024, .f32⟩ : BufTy).Contents (Elt Ideal)) :
    val_main_v12 (F := Ideal) x0 x1 = dist x0 x1 := by
  funext i
  rw [val_main_v12_apply, val_main_v11_apply, val_main_v10_apply, val_main_cst_1_apply, val_main_v9_apply,
    val_main_v7_apply, val_main_v4_apply, val_main_v3_apply, val_main_v8_apply, val_main_v6_apply, val_main_v5_apply,
    val_main_v2_apply]
  simp only [val_main_v0_apply, val_main_v1_apply, val_main_cst_apply, val_main_cst_0_apply, lidx_eq, ridx_eq,
    suma_idx_eq, sumb_idx_eq, Ideal.subf_def, Ideal.mulf_def, Ideal.addf_def, Ideal.ofBits_def,
    Ideal.hostUnary_sqrt_def, Ideal.ofBits_zero_f32, zero_add]
  rfl

end Cert.Hellinger

end
-- ==== Proof.lean ====
/-
  The certificate of the distance-matrix kernel against its plain reference.

  Both programs compute, for `a` and `b` of 8192 rows of 1024 entries, the matrix whose entry `(n, m)` is
  `1/2 * (sum_k a[n, k] + sum_k b[m, k]) - sum_k sqrt a[n, k] * sqrt b[m, k]` (Proof/Spec.lean). The kernel forms the
  two row sums on the host, then over an 8 x 16 grid multiplies a 1024-row block of square roots of `a` by the
  transposed 512-row block of square roots of `b` — narrowed to bf16, which changes nothing over the extended reals —
  and stores half the broadcast row sums less that product (Proof/Tile.lean, one tile at an entry; Proof/Blocks.lean,
  the tiles are the matrix's blocks and cover it). The reference does the same with one whole contraction
  (Proof/Reference.lean). No law beyond re-indexing a finite sum joins the two sides, so the inputs' finiteness is not used.
  The idealization rewrote nothing, so `preserves` is trivial; the three frames are the generated runs.
-/
import proofs.«142866_j18305150615591_1_alg».proof.Defs
import proofs.«142866_j18305150615591_1_alg».proof.Proof.Gen.Kernel
import proofs.«142866_j18305150615591_1_alg».proof.Proof.Gen.Kernel.Skeleton
import proofs.«142866_j18305150615591_1_alg».proof.Proof.Gen.Kernel.Launch
import proofs.«142866_j18305150615591_1_alg».proof.Proof.Gen.Kernel.Points
import proofs.«142866_j18305150615591_1_alg».proof.Proof.Gen.Kernel.Frame
import proofs.«142866_j18305150615591_1_alg».proof.Proof.Gen.KernelIdeal
import proofs.«142866_j18305150615591_1_alg».proof.Proof.Gen.KernelIdeal.Skeleton
import proofs.«142866_j18305150615591_1_alg».proof.Proof.Gen.KernelIdeal.Launch
import proofs.«142866_j18305150615591_1_alg».proof.Proof.Gen.KernelIdeal.Points
import proofs.«142866_j18305150615591_1_alg».proof.Proof.Gen.KernelIdeal.Frame
import proofs.«142866_j18305150615591_1_alg».proof.Proof.Gen.ReferenceIdeal
import proofs.«142866_j18305150615591_1_alg».proof.Proof.Gen.Pre_finite_inputs
import proofs.«142866_j18305150615591_1_alg».proof.Proof.Gen.KernelIdeal.Value
import proofs.«142866_j18305150615591_1_alg».proof.Proof.Gen.ReferenceIdeal.Run
import proofs.«142866_j18305150615591_1_alg».proof.Proof.Gen.ReferenceIdeal.Read
import proofs.«142866_j18305150615591_1_alg».proof.Proof.Blocks
import proofs.«142866_j18305150615591_1_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals the kernel's result array and the reference's are both the distance matrix of the
    arguments, which agree. -/
theorem algebraic : Cert.algebraic_KernelIdeal_ReferenceIdeal := by
  intro m ρ m' ρ' _ hagree
  refine ⟨_, Cert.Hellinger.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.Hellinger.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
